-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S512x7 .f32) (main_arg5 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x7 .f32 := Host.absf main_arg4
  let main_cst_6 : FVec F S_ .f32 := constant S_ .f32 0x7F800000#32
  let main_v20 : FVec F S512x7 .f32 := broadcastInDim S512x7 ![] bcast_S_S512x7 main_cst_6
  let main_v21 : IVec S512x7 1 := cmpf .olt main_v19 main_v20
  let main_c_7 : IVec S_ 1 := constantI S_ 1 1#1
  let main_v22 : IVec S_ 1 := (fun x v => Host.reduce IntOp.andi x v reducesTo_S512x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x512 .f32) (main_arg3 : FVec F S512 .f32) (main_arg4 : FVec F S512x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x512 .f32 := Host.absf main_arg2
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1000x1433 : Shape := ⟨2, ![1000, 1433]⟩
abbrev S1000x512 : Shape := ⟨2, ![1000, 512]⟩
abbrev S1x512 : Shape := ⟨2, ![1, 512]⟩
abbrev S10000x7 : Shape := ⟨2, ![10000, 7]⟩
abbrev S200x10000 : Shape := ⟨2, ![200, 10000]⟩
abbrev S200x7 : Shape := ⟨2, ![200, 7]⟩
abbrev S200x512 : Shape := ⟨2, ![200, 512]⟩
abbrev S1x7 : Shape := ⟨2, ![1, 7]⟩
abbrev S400x10000 : Shape := ⟨2, ![400, 10000]⟩
abbrev S400x7 : Shape := ⟨2, ![400, 7]⟩
abbrev S400 : Shape := ⟨1, ![400]⟩
abbrev S400x1 : Shape := ⟨2, ![400, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .bf16⟩
  | .hbm, ⟨7, _⟩ => ⟨S1x512, .f32⟩
  | .hbm, ⟨8, _⟩ => ⟨S10000x7, .bf16⟩
  | .hbm, ⟨9, _⟩ => ⟨S1x7, .f32⟩
  | .hbm, ⟨10, _⟩ => ⟨S10000x7, .f32⟩
  | .local _ .vmem, ⟨0, _⟩ => ⟨S1000x1433, .f32⟩
  | .local _ .vmem, ⟨1, _⟩ => ⟨S1000x1433, .f32⟩
  | .local _ .vmem, ⟨2, _⟩ => ⟨S1433x512, .f32⟩
  | .local _ .vmem, ⟨3, _⟩ => ⟨S1000x512, .bf16⟩
  | .local _ .vmem, ⟨4, _⟩ => ⟨S1000x512, .bf16⟩
  | .local _ .vmem, ⟨5, _⟩ => ⟨S200x10000, .f32⟩
  | .local _ .vmem, ⟨6, _⟩ => ⟨S200x10000, .f32⟩
  | .local _ .vmem, ⟨7, _⟩ => ⟨S10000x512, .bf16⟩
  | .local _ .vmem, ⟨8, _⟩ => ⟨S1x512, .f32⟩
  | .local _ .vmem, ⟨9, _⟩ => ⟨S512x7, .f32⟩
  | .local _ .vmem, ⟨10, _⟩ => ⟨S200x7, .bf16⟩
  | .local _ .vmem, ⟨11, _⟩ => ⟨S200x7, .bf16⟩
  | .local _ .vmem, ⟨12, _⟩ => ⟨S400x10000, .f32⟩
  | .local _ .vmem, ⟨13, _⟩ => ⟨S400x10000, .f32⟩
  | .local _ .vmem, ⟨14, _⟩ => ⟨S10000x7, .bf16⟩
  | .local _ .vmem, ⟨15, _⟩ => ⟨S1x7, .f32⟩
  | .local _ .vmem, ⟨16, _⟩ => ⟨S400x7, .f32⟩
  | .local _ .vmem, ⟨17, _⟩ => ⟨S400x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x7 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x512_S1433x512_0_0 : ∀ a, (![0, 0] : Fin 2 → Nat) a + S1433x512.size a ≤ S1433x512.size a
  h_S1433x512 : 0 < S1433x512.numel
  inb_S1000x512_S1000x512_0_0 : ∀ a, (![0, 0] : Fin 2 → Nat) a + S1000x512.size a ≤ S1000x512.size a
  h_S1000x512 : 0 < S1000x512.numel
  packedbf16_S1000x512_S1000x512_0_0 : (Rect.unit (s := S1000x512) ![0, 0] S1000x512.size inb_S1000x512_S1000x512_0_0).PackedRows (EltTy.packing .bf16)
  shapeCasts_S512_S1x512 : S512.ShapeCasts S1x512
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S512x7_S512x7_0_0 : ∀ a, (![0, 0] : Fin 2 → Nat) a + S512x7.size a ≤ S512x7.size a
  h_S512x7 : 0 < S512x7.numel
  inb_S200x7_S200x7_0_0 : ∀ a, (![0, 0] : Fin 2 → Nat) a + S200x7.size a ≤ S200x7.size a
  h_S200x7 : 0 < S200x7.numel
  packedbf16_S200x7_S200x7_0_0 : (Rect.unit (s := S200x7) ![0, 0] S200x7.size inb_S200x7_S200x7_0_0).PackedRows (EltTy.packing .bf16)
  shapeCasts_S7_S1x7 : S7.ShapeCasts S1x7
  inb_S400x10000_S400x10000_0_0 : ∀ a, (![0, 0] : Fin 2 → Nat) a + S400x10000.size a ≤ S400x10000.size a
  h_S400x10000 : 0 < S400x10000.numel
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  reduces_S400x7_S400 : S400x7.Reduces [1] S400
  shapeCasts_S400_S400x1 : S400.ShapeCasts S400x1
  broadcasts_S400x1_S400x7 : S400x1.Broadcasts S400x7
  inb_S400x7_S400x7_0_0 : ∀ a, (![0, 0] : Fin 2 → Nat) a + S400x7.size a ≤ S400x7.size a
  h_S400x7 : 0 < S400x7.numel
  dot_S1000x1433_S1433x512_S1000x512_1_0_0_1_n_n_wf : DotDims.WF S1000x1433 S1433x512 S1000x512 [1] [0] [0] [1] [] []
  dot_S200x10000_S10000x512_S200x512_1_0_0_1_n_n_wf : DotDims.WF S200x10000 S10000x512 S200x512 [1] [0] [0] [1] [] []
  dot_S200x512_S512x7_S200x7_1_0_0_1_n_n_wf : DotDims.WF S200x512 S512x7 S200x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S10000x1433.size a
  hwx0_0 : ∀ i : grid0.Coords, EltTy.bits .f32 = 32 ∨ (Rect.block (s := S10000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x512.size a ≤ S1433x512.size a
  hwx0_1 : ∀ i : grid0.Coords, EltTy.bits .f32 = 32 ∨ (Rect.block (s := S1433x512) S1433x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x7.size a ≤ S512x7.size a
  hwx1_3 : ∀ i : grid1.Coords, EltTy.bits .f32 = 32 ∨ (Rect.block (s := S512x7) S512x7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x7.size a ≤ S10000x7.size a
  hwx1_4 : ∀ i : grid1.Coords, EltTy.bits .bf16 = 32 ∨ (Rect.block (s := S10000x7) S200x7.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .bf16 = 32 ∨ (Rect.block (s := S10000x7) S10000x7.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x7.size a ≤ S10000x7.size a
  hwx2_3 : ∀ i : grid2.Coords, EltTy.bits .f32 = 32 ∨ (Rect.block (s := S10000x7) S400x7.size (cc2_transform_3 i) (hinb2_3 i)).WholeWords (EltTy.packing .f32)

variable [Facts₀]

def dot_S1000x1433_S1433x512_S1000x512_1_0_0_1_n_n : DotDims S1000x1433 S1433x512 S1000x512 where
  lhsContracting := [1]
  rhsContracting := [0]
  lhsNonContracting := [0]
  rhsNonContracting := [1]
  lhsBatch := []
  rhsBatch := []
  wf := dot_S1000x1433_S1433x512_S1000x512_1_0_0_1_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf
def dot_S200x512_S512x7_S200x7_1_0_0_1_n_n : DotDims S200x512 S512x7 S200x7 where
  lhsContracting := [1]
  rhsContracting := [0]
  lhsNonContracting := [0]
  rhsNonContracting := [1]
  lhsBatch := []
  rhsBatch := []
  wf := dot_S200x512_S512x7_S200x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S200x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1x512 : Shape := ⟨2, ![1, 512]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x7, .f32⟩
  | .hbm, ⟨32, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x512_S10000x512_1_0_0_1_n_n_wf : DotDims.WF S10000x1433 S1433x512 S10000x512 [1] [0] [0] [1] [] []
  dot_S10000x10000_S10000x512_S10000x512_1_0_0_1_n_n_wf : DotDims.WF S10000x10000 S10000x512 S10000x512 [1] [0] [0] [1] [] []
  dot_S10000x512_S512x7_S10000x7_1_0_0_1_n_n_wf : DotDims.WF S10000x512 S512x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x512_S10000x512_1_0_0_1_n_n : DotDims S10000x1433 S1433x512 S10000x512 where
  lhsContracting := [1]
  rhsContracting := [0]
  lhsNonContracting := [0]
  rhsNonContracting := [1]
  lhsBatch := []
  rhsBatch := []
  wf := dot_S10000x1433_S1433x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.Spec.lean ====
/-
  The graph-convolution pair as mathematics, over the extended reals, index by index.

  A matrix is a function of a rank-2 index. `mul` is the matrix product as a finite sum. The three
  stages are stated for a matrix of ANY number of rows `m` in the row-carrying argument (the adjacency rows),
  because each stage works row by row: row `r` of its result depends on row `r` of that argument only
  (the `_row_congr` lemmas). So a stage applied to a block of consecutive adjacency rows is the same block of
  rows of the stage applied to the whole adjacency matrix; that is all a row tiling needs.

    stage 0:  s1 = x · w1
    stage 1:  s2 = max (adj · s1 + b1, 0) · w2
    stage 2:  out = softmax_rows (adj · s2 + b2),  softmax l = exp (l - rowmax l) / Σ_j exp (l - rowmax l)

  The two float literals (the zero of the relu and the -∞ the row maximum starts from) are kept as their words:
  the same word stands on both sides of every equation below and is never evaluated.
-/
import Idealize.ShloMosaic.PureOps.Ideal
import Idealize.ShloMosaic.Lib.ValueIdx

noncomputable section

namespace Cert.Gcn

open Idealize.ShloMosaic Idealize.ShloMosaic.ValueIdx

/-- An `m × n` matrix of extended reals, by index. -/
abbrev Mat (m n : ℕ) : Type := (⟨2, ![m, n]⟩ : Shape).Idx → EReal

/-- The row of an index, as a number below the row count. -/
abbrev row {m n : ℕ} (i : (⟨2, ![m, n]⟩ : Shape).Idx) : Fin m := ⟨(i 0).val, (i 0).isLt⟩
/-- The column of an index, as a number below the column count. -/
abbrev col {m n : ℕ} (i : (⟨2, ![m, n]⟩ : Shape).Idx) : Fin n := ⟨(i 1).val, (i 1).isLt⟩

/-- The relu's zero, as the f32 word. -/
abbrev zeroWord : EReal := Ideal.ofBits .f32 0x00000000#32
/-- The value a row maximum starts from (the f32 word of -∞). -/
abbrev negInfWord : EReal := Ideal.ofBits .f32 0xFF800000#32

/-- A vector of `n` entries as a one-row matrix (a bias, before it is added to every row). -/
def rowOf {n : ℕ} (b : (⟨1, ![n]⟩ : Shape).Idx → EReal) : Mat 1 n := fun i => b (ix1 (col i))

theorem rowOf_ix2 {n : ℕ} (b : (⟨1, ![n]⟩ : Shape).Idx → EReal) (u : Fin 1) (q : Fin n) :
    rowOf b (ix2 u q) = b (ix1 q) := rfl

/-- The matrix product: entry (r, c) is Σ_q a(r, q) · b(q, c). -/
def mul {m k n : ℕ} (a : Mat m k) (b : Mat k n) : Mat m n :=
  fun i => ∑ q : Fin k, a (ix2 (row i) q) * b (ix2 q (col i))

theorem mul_ix2 {m k n : ℕ} (a : Mat m k) (b : Mat k n) (r : Fin m) (c : Fin n) :
    mul a b (ix2 r c) = ∑ q : Fin k, a (ix2 r q) * b (ix2 q c) := rfl

/-- Row `r` of a product depends on row `r` of the left factor only. -/
theorem mul_row_congr {m m' k n : ℕ} (a : Mat m k) (a' : Mat m' k) (b : Mat k n) (r : Fin m) (r' : Fin m')
    (h : ∀ q, a (ix2 r q) = a' (ix2 r' q)) (c : Fin n) : mul a b (ix2 r c) = mul a' b (ix2 r' c) := by
  rw [mul_ix2, mul_ix2]
  exact Finset.sum_congr rfl fun q _ => by rw [h q]

/-- The hidden activation: max (adj · s1 + b1, 0), the bias a one-row matrix added to every row. -/
def hidden {m : ℕ} (adj : Mat m 10000) (s1 : Mat 10000 512) (b1 : Mat 1 512) : Mat m 512 :=
  fun i => max (mul adj s1 i + b1 (ix2 0 (col i))) zeroWord

theorem hidden_ix2 {m : ℕ} (adj : Mat m 10000) (s1 : Mat 10000 512) (b1 : Mat 1 512) (r : Fin m) (c : Fin 512) :
    hidden adj s1 b1 (ix2 r c) = max (mul adj s1 (ix2 r c) + b1 (ix2 0 c)) zeroWord := rfl

theorem hidden_row_congr {m m' : ℕ} (adj : Mat m 10000) (adj' : Mat m' 10000) (s1 : Mat 10000 512) (b1 : Mat 1 512)
    (r : Fin m) (r' : Fin m') (h : ∀ q, adj (ix2 r q) = adj' (ix2 r' q)) (c : Fin 512) :
    hidden adj s1 b1 (ix2 r c) = hidden adj' s1 b1 (ix2 r' c) := by
  rw [hidden_ix2, hidden_ix2, mul_row_congr adj adj' s1 r r' h c]

/-- Stage 1: the hidden activation times the second weight. -/
def layer1 {m : ℕ} (adj : Mat m 10000) (s1 : Mat 10000 512) (b1 : Mat 1 512) (w2 : Mat 512 7) : Mat m 7 :=
  mul (hidden adj s1 b1) w2

theorem layer1_row_congr {m m' : ℕ} (adj : Mat m 10000) (adj' : Mat m' 10000) (s1 : Mat 10000 512) (b1 : Mat 1 512)
    (w2 : Mat 512 7) (r : Fin m) (r' : Fin m') (h : ∀ q, adj (ix2 r q) = adj' (ix2 r' q)) (c : Fin 7) :
    layer1 adj s1 b1 w2 (ix2 r c) = layer1 adj' s1 b1 w2 (ix2 r' c) :=
  mul_row_congr _ _ w2 r r' (fun q => hidden_row_congr adj adj' s1 b1 r r' h q) c

/-- The logits: adj · s2 + b2. -/
def logits {m : ℕ} (adj : Mat m 10000) (s2 : Mat 10000 7) (b2 : Mat 1 7) : Mat m 7 :=
  fun i => mul adj s2 i + b2 (ix2 0 (col i))

theorem logits_ix2 {m : ℕ} (adj : Mat m 10000) (s2 : Mat 10000 7) (b2 : Mat 1 7) (r : Fin m) (c : Fin 7) :
    logits adj s2 b2 (ix2 r c) = mul adj s2 (ix2 r c) + b2 (ix2 0 c) := rfl

theorem logits_row_congr {m m' : ℕ} (adj : Mat m 10000) (adj' : Mat m' 10000) (s2 : Mat 10000 7) (b2 : Mat 1 7)
    (r : Fin m) (r' : Fin m') (h : ∀ q, adj (ix2 r q) = adj' (ix2 r' q)) (c : Fin 7) :
    logits adj s2 b2 (ix2 r c) = logits adj' s2 b2 (ix2 r' c) := by
  rw [logits_ix2, logits_ix2, mul_row_congr adj adj' s2 r r' h c]

/-- A row's maximum over its seven entries, from -∞. -/
def rowMax {m : ℕ} (l : Mat m 7) (r : Fin m) : EReal :=
  (Finset.univ : Finset (Fin 7)).fold max negInfWord (fun j => l (ix2 r j))

/-- exp (l - rowmax l), entry by entry. -/
def expo {m : ℕ} (l : Mat m 7) : Mat m 7 := fun i => Ideal.exp (l i - rowMax l (row i))

theorem expo_ix2 {m : ℕ} (l : Mat m 7) (r : Fin m) (c : Fin 7) :
    expo l (ix2 r c) = Ideal.exp (l (ix2 r c) - rowMax l r) := rfl

/-- The softmax of each row. -/
def softmax {m : ℕ} (l : Mat m 7) : Mat m 7 :=
  fun i => Ideal.div (expo l i) (∑ j : Fin 7, expo l (ix2 (row i) j))

theorem softmax_ix2 {m : ℕ} (l : Mat m 7) (r : Fin m) (c : Fin 7) :
    softmax l (ix2 r c) = Ideal.div (expo l (ix2 r c)) (∑ j : Fin 7, expo l (ix2 r j)) := rfl

/-- A row of the softmax depends on that row only. -/
theorem softmax_row_congr {m m' : ℕ} (l : Mat m 7) (l' : Mat m' 7) (r : Fin m) (r' : Fin m')
    (h : ∀ j, l (ix2 r j) = l' (ix2 r' j)) (c : Fin 7) : softmax l (ix2 r c) = softmax l' (ix2 r' c) := by
  have hm : rowMax l r = rowMax l' r' := by
    unfold rowMax
    rw [show (fun j => l (ix2 r j)) = fun j => l' (ix2 r' j) from funext fun j => h j]
  have he : ∀ j, expo l (ix2 r j) = expo l' (ix2 r' j) := fun j => by
    rw [expo_ix2, expo_ix2, h j, hm]
  rw [softmax_ix2, softmax_ix2, he c]
  exact congrArg _ (Finset.sum_congr rfl fun j _ => he j)

/-- Stage 2: the softmax of the logits. -/
def layer2 {m : ℕ} (adj : Mat m 10000) (s2 : Mat 10000 7) (b2 : Mat 1 7) : Mat m 7 :=
  softmax (logits adj s2 b2)

theorem layer2_row_congr {m m' : ℕ} (adj : Mat m 10000) (adj' : Mat m' 10000) (s2 : Mat 10000 7) (b2 : Mat 1 7)
    (r : Fin m) (r' : Fin m') (h : ∀ q, adj (ix2 r q) = adj' (ix2 r' q)) (c : Fin 7) :
    layer2 adj s2 b2 (ix2 r c) = layer2 adj' s2 b2 (ix2 r' c) :=
  softmax_row_congr _ _ r r' (fun j => logits_row_congr adj adj' s2 b2 r r' h j) c

end Cert.Gcn

end
-- ==== Proof.Mat.lean ====
/- Each of the kernel's four matrix products, read at the extended reals: a product into a zero accumulator is, entry by
  entry, the finite sum Σ_q a(r, q) · b(q, c) — the matrix product `Cert.Gcn.mul` of its two operands. The contraction
  index of the product's dimension record is its one coordinate; the operand indices at output index (r, c) and
  contraction coordinate q are (r, q) and (q, c).
-/
import proofs.«109245_g25812753449811_cont_sun_m_348_3_alg».proof.Proof.Gen.KernelIdeal
import proofs.«109245_g25812753449811_cont_sun_m_348_3_alg».proof.Proof.Spec
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## stage 0's product: a block of 1000 rows of x times w1 -/

theorem lhs_k1_0 (i : S1000x512.Idx) (q : dot_S1000x1433_S1433x512_S1000x512_1_0_0_1_n_n.contr.Idx) :
    (dot_S1000x1433_S1433x512_S1000x512_1_0_0_1_n_n.lhsIdx i q 0).val = (i 0).val := by
  unfold DotDims.lhsIdx
  rw [dif_neg (show ¬(0 : Fin S1000x1433.rank) ∈ dot_S1000x1433_S1433x512_S1000x512_1_0_0_1_n_n.lhsBatch by decide), dif_pos (show (0 : Fin S1000x1433.rank) ∈ dot_S1000x1433_S1433x512_S1000x512_1_0_0_1_n_n.lhsNonContracting by decide)]
  rfl
theorem lhs_k1_1 (i : S1000x512.Idx) (q : dot_S1000x1433_S1433x512_S1000x512_1_0_0_1_n_n.contr.Idx) :
    (dot_S1000x1433_S1433x512_S1000x512_1_0_0_1_n_n.lhsIdx i q 1).val = (q ⟨0, by decide⟩).val :=
  dot_S1000x1433_S1433x512_S1000x512_1_0_0_1_n_n.lhsIdx_val_of_single rfl i q
theorem rhs_k1_0 (i : S1000x512.Idx) (q : dot_S1000x1433_S1433x512_S1000x512_1_0_0_1_n_n.contr.Idx) :
    (dot_S1000x1433_S1433x512_S1000x512_1_0_0_1_n_n.rhsIdx i q 0).val = (q ⟨0, by decide⟩).val :=
  dot_S1000x1433_S1433x512_S1000x512_1_0_0_1_n_n.rhsIdx_val_of_single rfl i q
theorem rhs_k1_1 (i : S1000x512.Idx) (q : dot_S1000x1433_S1433x512_S1000x512_1_0_0_1_n_n.contr.Idx) :
    (dot_S1000x1433_S1433x512_S1000x512_1_0_0_1_n_n.rhsIdx i q 1).val = (i 1).val := by
  unfold DotDims.rhsIdx
  rw [dif_neg (show ¬(1 : Fin S1433x512.rank) ∈ dot_S1000x1433_S1433x512_S1000x512_1_0_0_1_n_n.rhsBatch by decide), dif_pos (show (1 : Fin S1433x512.rank) ∈ dot_S1000x1433_S1433x512_S1000x512_1_0_0_1_n_n.rhsNonContracting by decide)]
  rfl

/-- The product into the zero accumulator is `Cert.Gcn.mul` of its operands, at every entry. -/
theorem matmul_k1 {φ₁ φ₂ : FTy} (a : FVec Ideal S1000x1433 φ₁) (b : FVec Ideal S1433x512 φ₂) :
    matmul dot_S1000x1433_S1433x512_S1000x512_1_0_0_1_n_n none a b (constant (F := Ideal) S1000x512 .f32 0x00000000#32) = Cert.Gcn.mul a b := by
  funext i
  simp only [matmul]
  rw [Ideal.matmul_constant_zero_apply, ← Equiv.sum_comp (contrEquiv1 dot_S1000x1433_S1433x512_S1000x512_1_0_0_1_n_n 1433 rfl rfl).symm]
  show _ = ∑ k : Fin 1433, a (ix2 (Cert.Gcn.row i) k) * b (ix2 k (Cert.Gcn.col i))
  refine Finset.sum_congr rfl fun k _ => ?_
  have hk := contrEquiv1_symm_val dot_S1000x1433_S1433x512_S1000x512_1_0_0_1_n_n 1433 rfl rfl k
  have el : dot_S1000x1433_S1433x512_S1000x512_1_0_0_1_n_n.lhsIdx i ((contrEquiv1 dot_S1000x1433_S1433x512_S1000x512_1_0_0_1_n_n 1433 rfl rfl).symm k) = ix2 (Cert.Gcn.row i) k := funext fun a => Fin.ext (by
    match a with
    | ⟨0, _⟩ => exact lhs_k1_0 _ _
    | ⟨1, _⟩ => exact (lhs_k1_1 _ _).trans hk)
  have er : dot_S1000x1433_S1433x512_S1000x512_1_0_0_1_n_n.rhsIdx i ((contrEquiv1 dot_S1000x1433_S1433x512_S1000x512_1_0_0_1_n_n 1433 rfl rfl).symm k) = ix2 k (Cert.Gcn.col i) := funext fun a => Fin.ext (by
    match a with
    | ⟨0, _⟩ => exact (rhs_k1_0 _ _).trans hk
    | ⟨1, _⟩ => exact rhs_k1_1 _ _)
  rw [el, er]

/-! ## stage 1's first product: a block of 200 adjacency rows times s1 -/

theorem lhs_k2a_0 (i : S200x512.Idx) (q : dot_S200x10000_S10000x512_S200x512_1_0_0_1_n_n.contr.Idx) :
    (dot_S200x10000_S10000x512_S200x512_1_0_0_1_n_n.lhsIdx i q 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
theorem lhs_k2a_1 (i : S200x512.Idx) (q : dot_S200x10000_S10000x512_S200x512_1_0_0_1_n_n.contr.Idx) :
    (dot_S200x10000_S10000x512_S200x512_1_0_0_1_n_n.lhsIdx i q 1).val = (q ⟨0, by decide⟩).val :=
  dot_S200x10000_S10000x512_S200x512_1_0_0_1_n_n.lhsIdx_val_of_single rfl i q
theorem rhs_k2a_0 (i : S200x512.Idx) (q : dot_S200x10000_S10000x512_S200x512_1_0_0_1_n_n.contr.Idx) :
    (dot_S200x10000_S10000x512_S200x512_1_0_0_1_n_n.rhsIdx i q 0).val = (q ⟨0, by decide⟩).val :=
  dot_S200x10000_S10000x512_S200x512_1_0_0_1_n_n.rhsIdx_val_of_single rfl i q
theorem rhs_k2a_1 (i : S200x512.Idx) (q : dot_S200x10000_S10000x512_S200x512_1_0_0_1_n_n.contr.Idx) :
    (dot_S200x10000_S10000x512_S200x512_1_0_0_1_n_n.rhsIdx i q 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- The product into the zero accumulator is `Cert.Gcn.mul` of its operands, at every entry. -/
theorem matmul_k2a {φ₁ φ₂ : FTy} (a : FVec Ideal S200x10000 φ₁) (b : FVec Ideal S10000x512 φ₂) :
    matmul dot_S200x10000_S10000x512_S200x512_1_0_0_1_n_n none a b (constant (F := Ideal) S200x512 .f32 0x00000000#32) = Cert.Gcn.mul a b := by
  funext i
  simp only [matmul]
  rw [Ideal.matmul_constant_zero_apply, ← Equiv.sum_comp (contrEquiv1 dot_S200x10000_S10000x512_S200x512_1_0_0_1_n_n 10000 rfl rfl).symm]
  show _ = ∑ k : Fin 10000, a (ix2 (Cert.Gcn.row i) k) * b (ix2 k (Cert.Gcn.col i))
  refine Finset.sum_congr rfl fun k _ => ?_
  have hk := contrEquiv1_symm_val dot_S200x10000_S10000x512_S200x512_1_0_0_1_n_n 10000 rfl rfl k
  have el : dot_S200x10000_S10000x512_S200x512_1_0_0_1_n_n.lhsIdx i ((contrEquiv1 dot_S200x10000_S10000x512_S200x512_1_0_0_1_n_n 10000 rfl rfl).symm k) = ix2 (Cert.Gcn.row i) k := funext fun a => Fin.ext (by
    match a with
    | ⟨0, _⟩ => exact lhs_k2a_0 _ _
    | ⟨1, _⟩ => exact (lhs_k2a_1 _ _).trans hk)
  have er : dot_S200x10000_S10000x512_S200x512_1_0_0_1_n_n.rhsIdx i ((contrEquiv1 dot_S200x10000_S10000x512_S200x512_1_0_0_1_n_n 10000 rfl rfl).symm k) = ix2 k (Cert.Gcn.col i) := funext fun a => Fin.ext (by
    match a with
    | ⟨0, _⟩ => exact (rhs_k2a_0 _ _).trans hk
    | ⟨1, _⟩ => exact rhs_k2a_1 _ _)
  rw [el, er]

/-! ## stage 1's second product: the block's hidden activation times w2 -/

theorem lhs_k2b_0 (i : S200x7.Idx) (q : dot_S200x512_S512x7_S200x7_1_0_0_1_n_n.contr.Idx) :
    (dot_S200x512_S512x7_S200x7_1_0_0_1_n_n.lhsIdx i q 0).val = (i 0).val := by
  unfold DotDims.lhsIdx
  rw [dif_neg (show ¬(0 : Fin S200x512.rank) ∈ dot_S200x512_S512x7_S200x7_1_0_0_1_n_n.lhsBatch by decide), dif_pos (show (0 : Fin S200x512.rank) ∈ dot_S200x512_S512x7_S200x7_1_0_0_1_n_n.lhsNonContracting by decide)]
  rfl
theorem lhs_k2b_1 (i : S200x7.Idx) (q : dot_S200x512_S512x7_S200x7_1_0_0_1_n_n.contr.Idx) :
    (dot_S200x512_S512x7_S200x7_1_0_0_1_n_n.lhsIdx i q 1).val = (q ⟨0, by decide⟩).val :=
  dot_S200x512_S512x7_S200x7_1_0_0_1_n_n.lhsIdx_val_of_single rfl i q
theorem rhs_k2b_0 (i : S200x7.Idx) (q : dot_S200x512_S512x7_S200x7_1_0_0_1_n_n.contr.Idx) :
    (dot_S200x512_S512x7_S200x7_1_0_0_1_n_n.rhsIdx i q 0).val = (q ⟨0, by decide⟩).val :=
  dot_S200x512_S512x7_S200x7_1_0_0_1_n_n.rhsIdx_val_of_single rfl i q
theorem rhs_k2b_1 (i : S200x7.Idx) (q : dot_S200x512_S512x7_S200x7_1_0_0_1_n_n.contr.Idx) :
    (dot_S200x512_S512x7_S200x7_1_0_0_1_n_n.rhsIdx i q 1).val = (i 1).val := by
  unfold DotDims.rhsIdx
  rw [dif_neg (show ¬(1 : Fin S512x7.rank) ∈ dot_S200x512_S512x7_S200x7_1_0_0_1_n_n.rhsBatch by decide), dif_pos (show (1 : Fin S512x7.rank) ∈ dot_S200x512_S512x7_S200x7_1_0_0_1_n_n.rhsNonContracting by decide)]
  rfl

/-- The product into the zero accumulator is `Cert.Gcn.mul` of its operands, at every entry. -/
theorem matmul_k2b {φ₁ φ₂ : FTy} (a : FVec Ideal S200x512 φ₁) (b : FVec Ideal S512x7 φ₂) :
    matmul dot_S200x512_S512x7_S200x7_1_0_0_1_n_n none a b (constant (F := Ideal) S200x7 .f32 0x00000000#32) = Cert.Gcn.mul a b := by
  funext i
  simp only [matmul]
  rw [Ideal.matmul_constant_zero_apply, ← Equiv.sum_comp (contrEquiv1 dot_S200x512_S512x7_S200x7_1_0_0_1_n_n 512 rfl rfl).symm]
  show _ = ∑ k : Fin 512, a (ix2 (Cert.Gcn.row i) k) * b (ix2 k (Cert.Gcn.col i))
  refine Finset.sum_congr rfl fun k _ => ?_
  have hk := contrEquiv1_symm_val dot_S200x512_S512x7_S200x7_1_0_0_1_n_n 512 rfl rfl k
  have el : dot_S200x512_S512x7_S200x7_1_0_0_1_n_n.lhsIdx i ((contrEquiv1 dot_S200x512_S512x7_S200x7_1_0_0_1_n_n 512 rfl rfl).symm k) = ix2 (Cert.Gcn.row i) k := funext fun a => Fin.ext (by
    match a with
    | ⟨0, _⟩ => exact lhs_k2b_0 _ _
    | ⟨1, _⟩ => exact (lhs_k2b_1 _ _).trans hk)
  have er : dot_S200x512_S512x7_S200x7_1_0_0_1_n_n.rhsIdx i ((contrEquiv1 dot_S200x512_S512x7_S200x7_1_0_0_1_n_n 512 rfl rfl).symm k) = ix2 k (Cert.Gcn.col i) := funext fun a => Fin.ext (by
    match a with
    | ⟨0, _⟩ => exact (rhs_k2b_0 _ _).trans hk
    | ⟨1, _⟩ => exact rhs_k2b_1 _ _)
  rw [el, er]

/-! ## stage 2's product: a block of 400 adjacency rows times s2 -/

theorem lhs_k3_0 (i : S400x7.Idx) (q : dot_S400x10000_S10000x7_S400x7_1_0_0_1_n_n.contr.Idx) :
    (dot_S400x10000_S10000x7_S400x7_1_0_0_1_n_n.lhsIdx i q 0).val = (i 0).val := by
  unfold DotDims.lhsIdx
  rw [dif_neg (show ¬(0 : Fin S400x10000.rank) ∈ dot_S400x10000_S10000x7_S400x7_1_0_0_1_n_n.lhsBatch by decide), dif_pos (show (0 : Fin S400x10000.rank) ∈ dot_S400x10000_S10000x7_S400x7_1_0_0_1_n_n.lhsNonContracting by decide)]
  rfl
theorem lhs_k3_1 (i : S400x7.Idx) (q : dot_S400x10000_S10000x7_S400x7_1_0_0_1_n_n.contr.Idx) :
    (dot_S400x10000_S10000x7_S400x7_1_0_0_1_n_n.lhsIdx i q 1).val = (q ⟨0, by decide⟩).val :=
  dot_S400x10000_S10000x7_S400x7_1_0_0_1_n_n.lhsIdx_val_of_single rfl i q
theorem rhs_k3_0 (i : S400x7.Idx) (q : dot_S400x10000_S10000x7_S400x7_1_0_0_1_n_n.contr.Idx) :
    (dot_S400x10000_S10000x7_S400x7_1_0_0_1_n_n.rhsIdx i q 0).val = (q ⟨0, by decide⟩).val :=
  dot_S400x10000_S10000x7_S400x7_1_0_0_1_n_n.rhsIdx_val_of_single rfl i q
theorem rhs_k3_1 (i : S400x7.Idx) (q : dot_S400x10000_S10000x7_S400x7_1_0_0_1_n_n.contr.Idx) :
    (dot_S400x10000_S10000x7_S400x7_1_0_0_1_n_n.rhsIdx i q 1).val = (i 1).val := by
  unfold DotDims.rhsIdx
  rw [dif_neg (show ¬(1 : Fin S10000x7.rank) ∈ dot_S400x10000_S10000x7_S400x7_1_0_0_1_n_n.rhsBatch by decide), dif_pos (show (1 : Fin S10000x7.rank) ∈ dot_S400x10000_S10000x7_S400x7_1_0_0_1_n_n.rhsNonContracting by decide)]
  rfl

/-- The product into the zero accumulator is `Cert.Gcn.mul` of its operands, at every entry. -/
theorem matmul_k3 {φ₁ φ₂ : FTy} (a : FVec Ideal S400x10000 φ₁) (b : FVec Ideal S10000x7 φ₂) :
    matmul dot_S400x10000_S10000x7_S400x7_1_0_0_1_n_n none a b (constant (F := Ideal) S400x7 .f32 0x00000000#32) = Cert.Gcn.mul a b := by
  funext i
  simp only [matmul]
  rw [Ideal.matmul_constant_zero_apply, ← Equiv.sum_comp (contrEquiv1 dot_S400x10000_S10000x7_S400x7_1_0_0_1_n_n 10000 rfl rfl).symm]
  show _ = ∑ k : Fin 10000, a (ix2 (Cert.Gcn.row i) k) * b (ix2 k (Cert.Gcn.col i))
  refine Finset.sum_congr rfl fun k _ => ?_
  have hk := contrEquiv1_symm_val dot_S400x10000_S10000x7_S400x7_1_0_0_1_n_n 10000 rfl rfl k
  have el : dot_S400x10000_S10000x7_S400x7_1_0_0_1_n_n.lhsIdx i ((contrEquiv1 dot_S400x10000_S10000x7_S400x7_1_0_0_1_n_n 10000 rfl rfl).symm k) = ix2 (Cert.Gcn.row i) k := funext fun a => Fin.ext (by
    match a with
    | ⟨0, _⟩ => exact lhs_k3_0 _ _
    | ⟨1, _⟩ => exact (lhs_k3_1 _ _).trans hk)
  have er : dot_S400x10000_S10000x7_S400x7_1_0_0_1_n_n.rhsIdx i ((contrEquiv1 dot_S400x10000_S10000x7_S400x7_1_0_0_1_n_n 10000 rfl rfl).symm k) = ix2 k (Cert.Gcn.col i) := funext fun a => Fin.ext (by
    match a with
    | ⟨0, _⟩ => exact (rhs_k3_0 _ _).trans hk
    | ⟨1, _⟩ => exact rhs_k3_1 _ _)
  rw [el, er]

end Cert.KernelIdeal.Products

end
-- ==== Proof.Stage0.lean ====
/-
  Stage 0 of the kernel, s1 = x · w1, as the first pipelined call leaves it in its output array.

  The call walks ten grid points; at point t it reads rows 1000 t … 1000 t + 999 of x and the whole of w1, and
  writes back their product (its body rounds the operands and the product to a narrower float format, which is
  the identity at the extended reals). Row r of a product depends on row r of the left factor only, so the
  block written at point t is rows 1000 t … of the product of the WHOLE x with w1; the ten blocks tile the
  output array, which therefore ends holding `Cert.Gcn.mul x w1`. Stated at any contents `V` of the
  buffers at the call's entry.
-/
import proofs.«109245_g25812753449811_cont_sun_m_348_3_alg».proof.Proof.Gen.KernelIdeal.Frame
import proofs.«109245_g25812753449811_cont_sun_m_348_3_alg».proof.Proof.Mat
import Idealize.ShloMosaic.Lib.Pipeline.Value

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two argument arrays as the call finds them, as matrices. -/
abbrev xarr (c : Dev nD) : Cert.Gcn.Mat 10000 1433 := V c main_arg0
abbrev warr (c : Dev nD) : Cert.Gcn.Mat 1433 512 := V c main_arg2
/-- The two input blocks at point `t`, as matrices. -/
abbrev xblk (c : Dev nD) (t : Fin cfg0.N) : Cert.Gcn.Mat 1000 1433 := iblk0 V c 0 t
abbrev wblk (c : Dev nD) (t : Fin cfg0.N) : Cert.Gcn.Mat 1433 512 := iblk0 V c 1 t

/-- The index maps over the grid: x's and the output's block index is (t, 0), w1's is (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value is the product of its two loaded blocks. -/
theorem pay_eq (x0 : Vec Ideal S1000x1433 .f32) (x1 : Vec Ideal S1433x512 .f32) :
    k0_pay1 (F := Ideal) x0 x1 = Cert.Gcn.mul x0 x1 :=
  Products.matmul_k1 (φ₁ := .bf16) (φ₂ := .bf16) x0 x1

/-- x's block at point t is rows 1000 t … of x. -/
theorem xblk_apply (c : Dev nD) (t : Fin cfg0.N) (p : Fin 1000) (q : Fin 1433) (ht : 1000 * t.val + p.val < 10000) :
    xblk V c t (ix2 p q) = xarr V c (ix2 ⟨1000 * t.val + p.val, ht⟩ q) := by
  unfold xblk iblk0
  rw [View.read_apply]
  show V c main_arg0 _ = V c main_arg0 _
  refine congrArg (V c main_arg0) (funext fun a => Fin.ext ?_)
  obtain ⟨e0, e1, -⟩ := idx_facts t
  match a with
  | ⟨0, _⟩ => show win0_0.index t (0 : Fin 2) * 1000 + 1 * p.val = 1000 * t.val + p.val; rw [e0]; omega
  | ⟨1, _⟩ => show win0_0.index t (1 : Fin 2) * 1433 + 1 * q.val = q.val; rw [e1]; omega

/-- w1's block at every point is w1. -/
theorem wblk_apply (c : Dev nD) (t : Fin cfg0.N) (k : Fin 1433) (q : Fin 512) :
    wblk V c t (ix2 k q) = warr V c (ix2 k q) := by
  unfold wblk iblk0
  rw [View.read_apply]
  show V c main_arg2 _ = V c main_arg2 _
  refine congrArg (V c main_arg2) (funext fun a => Fin.ext ?_)
  obtain ⟨-, -, e2, e3, -⟩ := idx_facts t
  match a with
  | ⟨0, _⟩ => show win0_1.index t (0 : Fin 2) * 1433 + 1 * k.val = k.val; rw [e2]; omega
  | ⟨1, _⟩ => show win0_1.index t (1 : Fin 2) * 512 + 1 * q.val = q.val; rw [e3]; omega

/-- What point t writes back is block t of the product of the whole arrays. -/
theorem flushed_eq (c : Dev nD) (t : Fin cfg0.N) :
    (dat0 V c).flushed 2 t = ((cfg0.win 2).blk t).view.read (Elt Ideal) (Cert.Gcn.mul (xarr V c) (warr V c)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x512) hz]
  rw [pay_eq]
  funext y
  have hy0 : (y 0).val < 1000 := (y 0).isLt
  have hy1 : (y 1).val < 512 := (y 1).isLt
  have hN : t.val < 10 := by have h := t.isLt; have e : cfg0.N = 10 := N_0; omega
  obtain ⟨-, -, -, -, e4, e5⟩ := idx_facts t
  show ∑ q : Fin 1433, xblk V c t (ix2 (⟨(y 0).val, hy0⟩ : Fin 1000) q) * wblk V c t (ix2 q (⟨(y 1).val, hy1⟩ : Fin 512))
    = Cert.Gcn.mul (xarr V c) (warr V c) (((cfg0.win 2).blk t).view.emb y)
  have hemb : ((cfg0.win 2).blk t).view.emb y
      = ix2 (⟨1000 * t.val + (y 0).val, by omega⟩ : Fin 10000) (⟨(y 1).val, hy1⟩ : Fin 512) := by
    funext a; apply Fin.ext
    match a with
    | ⟨0, _⟩ => show win0_2.index t (0 : Fin 2) * 1000 + 1 * (y 0).val = 1000 * t.val + (y 0).val; rw [e4]; omega
    | ⟨1, _⟩ => show win0_2.index t (1 : Fin 2) * 512 + 1 * (y 1).val = (y 1).val; rw [e5]; omega
  rw [hemb, Cert.Gcn.mul_ix2]
  refine Finset.sum_congr rfl fun k _ => ?_
  rw [xblk_apply V c t _ k (by omega), wblk_apply V c t k _]

/-- Every index of the output array is in some point's block: row r is in block r / 1000. -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  have e : cfg0.N = 10 := N_0
  let t : Fin cfg0.N := ⟨(i 0).val / 1000, by omega⟩
  obtain ⟨-, -, -, -, e4, e5⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 1000 ≤ (i 0).val ∧ (i 0).val < win0_2.index t (0 : Fin 2) * 1000 + 1000
    rw [e4]; show (i 0).val / 1000 * 1000 ≤ (i 0).val ∧ (i 0).val < (i 0).val / 1000 * 1000 + 1000; omega
  | ⟨1, _⟩ =>
    show win0_2.index t (1 : Fin 2) * 512 ≤ (i 1).val ∧ (i 1).val < win0_2.index t (1 : Fin 2) * 512 + 512
    rw [e5]; omega

/-- The output array after the call: the product of the whole arrays. -/
theorem final (c : Dev nD) : (dat0 V c).arrAt 2 cfg0.N = Cert.Gcn.mul (xarr V c) (warr V c) :=
  (dat0 V c).arrAt_eq_of_cover 2 (Cert.Gcn.mul (xarr V c) (warr V c)) (fun t _ => flushed_eq V c t) cover

end Cert.KernelIdeal.Stage0

end
-- ==== Proof.Stage1.lean ====
/-
  Stage 1 of the kernel, s2 = max (adj · s1 + b1, 0) · w2, as the second pipelined call leaves it in its output array.

  The call walks fifty grid points; at point t it reads rows 200 t … 200 t + 199 of the adjacency matrix and the whole
  of s1, of the bias row and of w2, and writes back the block's hidden activation times w2 (the roundings to a narrower
  float format in its body are the identity at the extended reals). Row r of the stage depends on row r of the
  adjacency matrix only (`Cert.Gcn.layer1_row_congr`), so the block written at point t is rows 200 t … of the stage
  applied to the WHOLE adjacency matrix; the fifty blocks tile the output array, which therefore ends holding
  `Cert.Gcn.layer1 adj s1 b1 w2`. Stated at any contents `V` of the buffers at the call's entry.
-/
import proofs.«109245_g25812753449811_cont_sun_m_348_3_alg».proof.Proof.Gen.KernelIdeal.Frame
import proofs.«109245_g25812753449811_cont_sun_m_348_3_alg».proof.Proof.Mat
import Idealize.ShloMosaic.Lib.Pipeline.Value
import Idealize.ShloMosaic.Lib.ValueLayout

set_option maxRecDepth 16384

noncomputable section

namespace Cert.KernelIdeal.Stage1

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The four input arrays as the call finds them, as matrices. -/
abbrev adj (c : Dev nD) : Cert.Gcn.Mat 10000 10000 := V c main_arg1
abbrev s1arr (c : Dev nD) : Cert.Gcn.Mat 10000 512 := V c main_v0
abbrev b1arr (c : Dev nD) : Cert.Gcn.Mat 1 512 := V c main_v1
abbrev w2arr (c : Dev nD) : Cert.Gcn.Mat 512 7 := V c main_arg4
/-- The four input blocks at point `t`, as matrices. -/
abbrev ablk (c : Dev nD) (t : Fin cfg1.N) : Cert.Gcn.Mat 200 10000 := iblk1 V c 0 t
abbrev sblk (c : Dev nD) (t : Fin cfg1.N) : Cert.Gcn.Mat 10000 512 := iblk1 V c 1 t
abbrev bblk (c : Dev nD) (t : Fin cfg1.N) : Cert.Gcn.Mat 1 512 := iblk1 V c 2 t
abbrev wblk (c : Dev nD) (t : Fin cfg1.N) : Cert.Gcn.Mat 512 7 := iblk1 V c 3 t

/-- The index maps over the grid: the adjacency's and the output's block index is (t, 0), the others' (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's hidden activation, as it computes it from its loaded blocks. -/
abbrev hid (x0 : FVec Ideal S200x10000 .f32) (x1 : FVec Ideal S10000x512 .bf16) (x2 : FVec Ideal S1x512 .f32) : FVec Ideal S200x512 .f32 :=
  maximumf (addf (matmul (φ₁ := .bf16) (φ₂ := .bf16) dot_S200x10000_S10000x512_S200x512_1_0_0_1_n_n none (truncf .bf16 x0 Facts₀.bitsLt_bf16_f32)
      (shapeCast S10000x512 x1 Facts₀.shapeCasts_S10000x512_S10000x512) (constant (F := Ideal) S200x512 .f32 0x00000000#32))
    (broadcastTo S200x512 (shapeCast S1x512 x2 Facts₀.shapeCasts_S1x512_S1x512) Facts₀.broadcasts_S1x512_S200x512))
    (broadcast S200x512 (Scalar.ofBits (F := Ideal) .f32 0x00000000#32))

/-- It is the specification's hidden activation of the blocks: the first product, plus the bias row on every row,
    against zero. -/
theorem hid_eq (x0 : Vec Ideal S200x10000 .f32) (x1 : Vec Ideal S10000x512 .bf16) (x2 : Vec Ideal S1x512 .f32) :
    hid x0 x1 x2 = Cert.Gcn.hidden x0 x1 x2 := by
  funext i
  obtain ⟨p, q, rfl⟩ : ∃ (p : Fin 200) (q : Fin 512), i = ix2 p q := ⟨i 0, i 1, eq_ix2 i⟩
  rw [Cert.Gcn.hidden_ix2]
  unfold hid
  rw [maximumf_apply, addf_apply, broadcast_apply, shapeCast_self, shapeCast_self,
    Products.matmul_k2a (φ₁ := .bf16) (φ₂ := .bf16), broadcastTo_1b_ab_apply]
  rfl

/-- The body's stored value is stage 1 of its four loaded blocks. -/
theorem pay_eq (x0 : Vec Ideal S200x10000 .f32) (x1 : Vec Ideal S10000x512 .bf16) (x2 : Vec Ideal S1x512 .f32)
    (x3 : Vec Ideal S512x7 .f32) : k1_pay1 (F := Ideal) x0 x1 x2 x3 = Cert.Gcn.layer1 x0 x1 x2 x3 := by
  unfold Cert.Gcn.layer1
  rw [← hid_eq x0 x1 x2]
  exact Products.matmul_k2b (φ₁ := .bf16) (φ₂ := .bf16) (hid x0 x1 x2) x3

/-- The adjacency block at point t is rows 200 t … of the adjacency matrix. -/
theorem ablk_apply (c : Dev nD) (t : Fin cfg1.N) (p : Fin 200) (q : Fin 10000) (ht : 200 * t.val + p.val < 10000) :
    ablk V c t (ix2 p q) = adj V c (ix2 ⟨200 * t.val + p.val, ht⟩ q) := by
  unfold ablk iblk1
  rw [View.read_apply]
  show V c main_arg1 _ = V c main_arg1 _
  refine congrArg (V c main_arg1) (funext fun a => Fin.ext ?_)
  obtain ⟨e0, e1, -⟩ := idx_facts t
  match a with
  | ⟨0, _⟩ => show win1_0.index t (0 : Fin 2) * 200 + 1 * p.val = 200 * t.val + p.val; rw [e0]; omega
  | ⟨1, _⟩ => show win1_0.index t (1 : Fin 2) * 10000 + 1 * q.val = q.val; rw [e1]; omega

/-- The other three blocks are their whole arrays at every point. -/
theorem sblk_eq (c : Dev nD) (t : Fin cfg1.N) : sblk V c t = s1arr V c := by
  funext i
  obtain ⟨k, q, rfl⟩ : ∃ (k : Fin 10000) (q : Fin 512), i = ix2 k q := ⟨i 0, i 1, eq_ix2 i⟩
  unfold sblk iblk1
  rw [View.read_apply]
  show V c main_v0 _ = V c main_v0 _
  refine congrArg (V c main_v0) (funext fun a => Fin.ext ?_)
  obtain ⟨-, -, e2, e3, -⟩ := idx_facts t
  match a with
  | ⟨0, _⟩ => show win1_1.index t (0 : Fin 2) * 10000 + 1 * k.val = k.val; rw [e2]; omega
  | ⟨1, _⟩ => show win1_1.index t (1 : Fin 2) * 512 + 1 * q.val = q.val; rw [e3]; omega

theorem bblk_eq (c : Dev nD) (t : Fin cfg1.N) : bblk V c t = b1arr V c := by
  funext i
  obtain ⟨k, q, rfl⟩ : ∃ (k : Fin 1) (q : Fin 512), i = ix2 k q := ⟨i 0, i 1, eq_ix2 i⟩
  unfold bblk iblk1
  rw [View.read_apply]
  show V c main_v1 _ = V c main_v1 _
  refine congrArg (V c main_v1) (funext fun a => Fin.ext ?_)
  obtain ⟨-, -, -, -, e4, e5, -⟩ := idx_facts t
  match a with
  | ⟨0, _⟩ => show win1_2.index t (0 : Fin 2) * 1 + 1 * k.val = k.val; rw [e4]; omega
  | ⟨1, _⟩ => show win1_2.index t (1 : Fin 2) * 512 + 1 * q.val = q.val; rw [e5]; omega

theorem wblk_eq (c : Dev nD) (t : Fin cfg1.N) : wblk V c t = w2arr V c := by
  funext i
  obtain ⟨k, q, rfl⟩ : ∃ (k : Fin 512) (q : Fin 7), i = ix2 k q := ⟨i 0, i 1, eq_ix2 i⟩
  unfold wblk iblk1
  rw [View.read_apply]
  show V c main_arg4 _ = V c main_arg4 _
  refine congrArg (V c main_arg4) (funext fun a => Fin.ext ?_)
  obtain ⟨-, -, -, -, -, -, e6, e7, -⟩ := idx_facts t
  match a with
  | ⟨0, _⟩ => show win1_3.index t (0 : Fin 2) * 512 + 1 * k.val = k.val; rw [e6]; omega
  | ⟨1, _⟩ => show win1_3.index t (1 : Fin 2) * 7 + 1 * q.val = q.val; rw [e7]; omega

/-- What point t writes back is block t of stage 1 of the whole arrays. -/
theorem flushed_eq (c : Dev nD) (t : Fin cfg1.N) :
    (dat1 V c).flushed 4 t
      = ((cfg1.win 4).blk t).view.read (Elt Ideal) (Cert.Gcn.layer1 (adj V c) (s1arr V c) (b1arr V c) (w2arr V c)) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x512) hz,
    View.ld_unit_zero (S := S1x512) hz, View.ld_unit_zero (S := S512x7) hz]
  rw [pay_eq]
  funext y
  have hy0 : (y 0).val < 200 := (y 0).isLt
  have hy1 : (y 1).val < 7 := (y 1).isLt
  have hN : t.val < 50 := by have h := t.isLt; have e : cfg1.N = 50 := N_1; omega
  obtain ⟨-, -, -, -, -, -, -, -, e8, e9⟩ := idx_facts t
  have hemb : ((cfg1.win 4).blk t).view.emb y
      = ix2 (⟨200 * t.val + (y 0).val, by omega⟩ : Fin 10000) (⟨(y 1).val, hy1⟩ : Fin 7) := by
    funext a; apply Fin.ext
    match a with
    | ⟨0, _⟩ => show win1_4.index t (0 : Fin 2) * 200 + 1 * (y 0).val = 200 * t.val + (y 0).val; rw [e8]; omega
    | ⟨1, _⟩ => show win1_4.index t (1 : Fin 2) * 7 + 1 * (y 1).val = (y 1).val; rw [e9]; omega
  have hcut : ∀ f : Cert.Gcn.Mat 200 7, (cfg1.win 4).cut (grid1.coords t) f y
      = f (ix2 (⟨(y 0).val, hy0⟩ : Fin 200) (⟨(y 1).val, hy1⟩ : Fin 7)) := fun f =>
    congrArg f (funext fun a => match a with | ⟨0, _⟩ => rfl | ⟨1, _⟩ => rfl)
  refine (hcut _).trans ?_
  show _ = Cert.Gcn.layer1 (adj V c) (s1arr V c) (b1arr V c) (w2arr V c) (((cfg1.win 4).blk t).view.emb y)
  rw [hemb]
  show Cert.Gcn.layer1 (ablk V c t) (sblk V c t) (bblk V c t) (wblk V c t) _ = _
  rw [sblk_eq, bblk_eq, wblk_eq]
  exact Cert.Gcn.layer1_row_congr _ _ _ _ _ _ _ (fun k => ablk_apply V c t _ k (by omega)) _

/-- Every index of the output array is in some point's block: row r is in block r / 200. -/
theorem cover (i : S10000x7.Idx) :
    ∃ t : Fin cfg1.N, (cfg1.win 4).flush t = true ∧ i ∈ ((cfg1.win 4).blk t).view.set := by
  have hi0 : (i 0).val < 10000 := (i 0).isLt
  have hi1 : (i 1).val < 7 := (i 1).isLt
  have e : cfg1.N = 50 := N_1
  let t : Fin cfg1.N := ⟨(i 0).val / 200, by omega⟩
  obtain ⟨-, -, -, -, -, -, -, -, e8, e9⟩ := idx_facts t
  refine ⟨t, flush1_4 t, ?_⟩
  show i ∈ ((View.whole main_v2).slice (win1_4.rect t)).set
  rw [View.set_slice_whole, Rect.mem_set_unit]
  intro a
  match a with
  | ⟨0, _⟩ =>
    show win1_4.index t (0 : Fin 2) * 200 ≤ (i 0).val ∧ (i 0).val < win1_4.index t (0 : Fin 2) * 200 + 200
    rw [e8]; show (i 0).val / 200 * 200 ≤ (i 0).val ∧ (i 0).val < (i 0).val / 200 * 200 + 200; omega
  | ⟨1, _⟩ =>
    show win1_4.index t (1 : Fin 2) * 7 ≤ (i 1).val ∧ (i 1).val < win1_4.index t (1 : Fin 2) * 7 + 7
    rw [e9]; omega

/-- The output array after the call: stage 1 of the whole arrays. -/
theorem final (c : Dev nD) :
    (dat1 V c).arrAt 4 cfg1.N = Cert.Gcn.layer1 (adj V c) (s1arr V c) (b1arr V c) (w2arr V c) :=
  (dat1 V c).arrAt_eq_of_cover 4 (Cert.Gcn.layer1 (adj V c) (s1arr V c) (b1arr V c) (w2arr V c))
    (fun t _ => flushed_eq V c t) cover

end Cert.KernelIdeal.Stage1

end
-- ==== Proof.Stage2.lean ====
/-
  Stage 2 of the kernel, out = softmax of the rows of (adj · s2 + b2), as the third pipelined call leaves it in the result.

  The call walks twenty-five grid points; at point t it reads rows 400 t … 400 t + 399 of the adjacency matrix and the
  whole of s2 and of the bias row, forms the block's logits, takes each row's maximum (a lane reduction kept as a one-column
  matrix and broadcast back along the row), exponentiates the differences, sums each row the same way and divides. Each of
  these steps works inside one row, so the block written at point t is rows 400 t … of the stage applied to the WHOLE
  adjacency matrix (`Cert.Gcn.layer2_row_congr`); the twenty-five blocks tile the result array, which therefore ends
  holding `Cert.Gcn.layer2 adj s2 b2`. Stated at any contents `V` of the buffers at the call's entry.
-/
import proofs.«109245_g25812753449811_cont_sun_m_348_3_alg».proof.Proof.Gen.KernelIdeal.Frame
import proofs.«109245_g25812753449811_cont_sun_m_348_3_alg».proof.Proof.Mat
import Idealize.ShloMosaic.Lib.Pipeline.Value
import Idealize.ShloMosaic.Lib.ValueLayout
import Idealize.ShloMosaic.PureOps.Ideal.Laws

set_option maxRecDepth 16384

noncomputable section

namespace Cert.KernelIdeal.Stage2

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic -/

/-- A vector of 400 row values kept as one column and broadcast back along each row of seven. -/
abbrev alongRows (v : FVec Ideal S400 .f32) : FVec Ideal S400x7 .f32 :=
  broadcastTo S400x7 (shapeCast S400x1 v Facts₀.shapeCasts_S400_S400x1) Facts₀.broadcasts_S400x1_S400x7

/-- At (p, q) it reads row p's value. -/
theorem alongRows_apply (v : FVec Ideal S400 .f32) (p : Fin 400) (q : Fin 7) : alongRows v (ix2 p q) = v (ix1 p) := by
  unfold alongRows
  refine (broadcastTo_apply _ Facts₀.broadcasts_S400x1_S400x7 (ix2 p q) (ix2 p (0 : Fin 1)) fun a => ?_).trans
    (shapeCast_apply v Facts₀.shapeCasts_S400_S400x1 (ix2 p (0 : Fin 1)) (ix1 p) ?_)
  · match a with
    | ⟨0, _⟩ => show p.val = if (400 : Nat) = 1 then 0 else p.val; rw [if_neg (by decide)]
    | ⟨1, _⟩ => show 0 = if (1 : Nat) = 1 then 0 else q.val; rw [if_pos rfl]
  · rw [Shape.rowMajor_val_two, Shape.rowMajor_val_one]
    show p.val = p.val * 1 + 0
    omega

/-- The rows' maxima, as the body's lane reduction takes them. -/
abbrev rmax (l : FVec Ideal S400x7 .f32) : FVec Ideal S400 .f32 :=
  multiReduction .maximumf [1] S400 l 0xFF800000#32 Facts₀.reduces_S400x7_S400 (.inl rfl) rfl

theorem rmax_apply (l : FVec Ideal S400x7 .f32) (p : Fin 400) : rmax l (ix1 p) = Cert.Gcn.rowMax l p := by
  unfold rmax Cert.Gcn.rowMax
  refine (Ideal.multiReduction_maximumf_single l 0xFF800000#32 Facts₀.reduces_S400x7_S400 (.inl rfl) rfl (ix1 p)).trans ?_
  show (Finset.univ : Finset (Fin 7)).fold max (Ideal.ofBits .f32 0xFF800000#32) (l ∘ (Facts₀.reduces_S400x7_S400).lift (ix1 p)) = _
  refine congrArg (fun f => (Finset.univ : Finset (Fin 7)).fold max (Ideal.ofBits .f32 0xFF800000#32) f) (funext fun j => ?_)
  exact congrArg l (funext fun a => Fin.ext (by match a with | ⟨0, _⟩ => rfl | ⟨1, _⟩ => rfl))

/-- The rows' sums, as the body's lane reduction takes them. -/
abbrev rsum (e : FVec Ideal S400x7 .f32) : FVec Ideal S400 .f32 :=
  multiReduction .add [1] S400 e 0x00000000#32 Facts₀.reduces_S400x7_S400 (.inl rfl) rfl

theorem rsum_apply (e : FVec Ideal S400x7 .f32) (p : Fin 400) : rsum e (ix1 p) = ∑ j : Fin 7, e (ix2 p j) := by
  unfold rsum
  refine (Ideal.multiReduction_add_single e 0x00000000#32 Facts₀.reduces_S400x7_S400 (.inl rfl) rfl (ix1 p)).trans ?_
  show ∑ j : Fin 7, e ((Facts₀.reduces_S400x7_S400).lift (ix1 p) j) = _
  refine Finset.sum_congr rfl fun j _ => ?_
  exact congrArg e (funext fun a => Fin.ext (by match a with | ⟨0, _⟩ => rfl | ⟨1, _⟩ => rfl))

/-- exp (l - rowmax l), as the body computes it. -/
abbrev ex (l : FVec Ideal S400x7 .f32) : FVec Ideal S400x7 .f32 := exp (subf l (alongRows (rmax l)))

theorem ex_eq (l : FVec Ideal S400x7 .f32) : ex l = Cert.Gcn.expo l := by
  funext i
  obtain ⟨p, q, rfl⟩ : ∃ (p : Fin 400) (q : Fin 7), i = ix2 p q := ⟨i 0, i 1, eq_ix2 i⟩
  rw [Cert.Gcn.expo_ix2]
  show Ideal.exp (l (ix2 p q) - alongRows (rmax l) (ix2 p q)) = _
  rw [alongRows_apply, rmax_apply]

/-- The softmax of the rows, as the body computes it. -/
abbrev sm (l : FVec Ideal S400x7 .f32) : FVec Ideal S400x7 .f32 := divf (ex l) (alongRows (rsum (ex l)))

theorem sm_eq (l : FVec Ideal S400x7 .f32) : sm l = Cert.Gcn.softmax l := by
  funext i
  obtain ⟨p, q, rfl⟩ : ∃ (p : Fin 400) (q : Fin 7), i = ix2 p q := ⟨i 0, i 1, eq_ix2 i⟩
  rw [Cert.Gcn.softmax_ix2]
  show Ideal.div (ex l (ix2 p q)) (alongRows (rsum (ex l)) (ix2 p q)) = _
  rw [alongRows_apply, rsum_apply, ex_eq]

/-- The block's logits, as the body computes them from its loaded blocks. -/
abbrev lg (x0 : FVec Ideal S400x10000 .f32) (x1 : FVec Ideal S10000x7 .bf16) (x2 : FVec Ideal S1x7 .f32) : FVec Ideal S400x7 .f32 :=
  addf (matmul (φ₁ := .bf16) (φ₂ := .bf16) dot_S400x10000_S10000x7_S400x7_1_0_0_1_n_n none (truncf .bf16 x0 Facts₀.bitsLt_bf16_f32)
      (shapeCast S10000x7 x1 Facts₀.shapeCasts_S10000x7_S10000x7) (constant (F := Ideal) S400x7 .f32 0x00000000#32))
    (broadcastTo S400x7 (shapeCast S1x7 x2 Facts₀.shapeCasts_S1x7_S1x7) Facts₀.broadcasts_S1x7_S400x7)

theorem lg_eq (x0 : Vec Ideal S400x10000 .f32) (x1 : Vec Ideal S10000x7 .bf16) (x2 : Vec Ideal S1x7 .f32) :
    lg x0 x1 x2 = Cert.Gcn.logits x0 x1 x2 := by
  funext i
  obtain ⟨p, q, rfl⟩ : ∃ (p : Fin 400) (q : Fin 7), i = ix2 p q := ⟨i 0, i 1, eq_ix2 i⟩
  rw [Cert.Gcn.logits_ix2]
  unfold lg
  rw [addf_apply, shapeCast_self, shapeCast_self,
    Products.matmul_k3 (φ₁ := .bf16) (φ₂ := .bf16), broadcastTo_1b_ab_apply]
  rfl

/-- The body's stored value is stage 2 of its three loaded blocks. -/
theorem pay_eq (x0 : Vec Ideal S400x10000 .f32) (x1 : Vec Ideal S10000x7 .bf16) (x2 : Vec Ideal S1x7 .f32) :
    k2_pay1 (F := Ideal) x0 x1 x2 = Cert.Gcn.layer2 x0 x1 x2 := by
  unfold Cert.Gcn.layer2
  rw [← lg_eq x0 x1 x2, ← sm_eq]
  rfl

/-! ## The blocks and the array -/

/-- The three input arrays as the call finds them, as matrices. -/
abbrev adj (c : Dev nD) : Cert.Gcn.Mat 10000 10000 := V c main_arg1
abbrev s2arr (c : Dev nD) : Cert.Gcn.Mat 10000 7 := V c main_v2
abbrev b2arr (c : Dev nD) : Cert.Gcn.Mat 1 7 := V c main_v3
/-- The three input blocks at point `t`, as matrices. -/
abbrev ablk (c : Dev nD) (t : Fin cfg2.N) : Cert.Gcn.Mat 400 10000 := iblk2 V c 0 t
abbrev sblk (c : Dev nD) (t : Fin cfg2.N) : Cert.Gcn.Mat 10000 7 := iblk2 V c 1 t
abbrev bblk (c : Dev nD) (t : Fin cfg2.N) : Cert.Gcn.Mat 1 7 := iblk2 V c 2 t

/-- The index maps over the grid: the adjacency's and the result's block index is (t, 0), the others' (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The adjacency block at point t is rows 400 t … of the adjacency matrix. -/
theorem ablk_apply (c : Dev nD) (t : Fin cfg2.N) (p : Fin 400) (q : Fin 10000) (ht : 400 * t.val + p.val < 10000) :
    ablk V c t (ix2 p q) = adj V c (ix2 ⟨400 * t.val + p.val, ht⟩ q) := by
  unfold ablk iblk2
  rw [View.read_apply]
  show V c main_arg1 _ = V c main_arg1 _
  refine congrArg (V c main_arg1) (funext fun a => Fin.ext ?_)
  obtain ⟨e0, e1, -⟩ := idx_facts t
  match a with
  | ⟨0, _⟩ => show win2_0.index t (0 : Fin 2) * 400 + 1 * p.val = 400 * t.val + p.val; rw [e0]; omega
  | ⟨1, _⟩ => show win2_0.index t (1 : Fin 2) * 10000 + 1 * q.val = q.val; rw [e1]; omega

/-- The other two blocks are their whole arrays at every point. -/
theorem sblk_eq (c : Dev nD) (t : Fin cfg2.N) : sblk V c t = s2arr V c := by
  funext i
  obtain ⟨k, q, rfl⟩ : ∃ (k : Fin 10000) (q : Fin 7), i = ix2 k q := ⟨i 0, i 1, eq_ix2 i⟩
  unfold sblk iblk2
  rw [View.read_apply]
  show V c main_v2 _ = V c main_v2 _
  refine congrArg (V c main_v2) (funext fun a => Fin.ext ?_)
  obtain ⟨-, -, e2, e3, -⟩ := idx_facts t
  match a with
  | ⟨0, _⟩ => show win2_1.index t (0 : Fin 2) * 10000 + 1 * k.val = k.val; rw [e2]; omega
  | ⟨1, _⟩ => show win2_1.index t (1 : Fin 2) * 7 + 1 * q.val = q.val; rw [e3]; omega

theorem bblk_eq (c : Dev nD) (t : Fin cfg2.N) : bblk V c t = b2arr V c := by
  funext i
  obtain ⟨k, q, rfl⟩ : ∃ (k : Fin 1) (q : Fin 7), i = ix2 k q := ⟨i 0, i 1, eq_ix2 i⟩
  unfold bblk iblk2
  rw [View.read_apply]
  show V c main_v3 _ = V c main_v3 _
  refine congrArg (V c main_v3) (funext fun a => Fin.ext ?_)
  obtain ⟨-, -, -, -, e4, e5, -⟩ := idx_facts t
  match a with
  | ⟨0, _⟩ => show win2_2.index t (0 : Fin 2) * 1 + 1 * k.val = k.val; rw [e4]; omega
  | ⟨1, _⟩ => show win2_2.index t (1 : Fin 2) * 7 + 1 * q.val = q.val; rw [e5]; omega

/-- What point t writes back is block t of stage 2 of the whole arrays. -/
theorem flushed_eq (c : Dev nD) (t : Fin cfg2.N) :
    (dat2 V c).flushed 3 t
      = ((cfg2.win 3).blk t).view.read (Elt Ideal) (Cert.Gcn.layer2 (adj V c) (s2arr V c) (b2arr V c)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x7) hz,
    View.ld_unit_zero (S := S1x7) hz]
  rw [pay_eq]
  funext y
  have hy0 : (y 0).val < 400 := (y 0).isLt
  have hy1 : (y 1).val < 7 := (y 1).isLt
  have hN : t.val < 25 := by have h := t.isLt; have e : cfg2.N = 25 := N_2; omega
  obtain ⟨-, -, -, -, -, -, e6, e7⟩ := idx_facts t
  have hemb : ((cfg2.win 3).blk t).view.emb y
      = ix2 (⟨400 * t.val + (y 0).val, by omega⟩ : Fin 10000) (⟨(y 1).val, hy1⟩ : Fin 7) := by
    funext a; apply Fin.ext
    match a with
    | ⟨0, _⟩ => show win2_3.index t (0 : Fin 2) * 400 + 1 * (y 0).val = 400 * t.val + (y 0).val; rw [e6]; omega
    | ⟨1, _⟩ => show win2_3.index t (1 : Fin 2) * 7 + 1 * (y 1).val = (y 1).val; rw [e7]; omega
  have hcut : ∀ f : Cert.Gcn.Mat 400 7, (cfg2.win 3).cut (grid2.coords t) f y
      = f (ix2 (⟨(y 0).val, hy0⟩ : Fin 400) (⟨(y 1).val, hy1⟩ : Fin 7)) := fun f =>
    congrArg f (funext fun a => match a with | ⟨0, _⟩ => rfl | ⟨1, _⟩ => rfl)
  refine (hcut _).trans ?_
  show _ = Cert.Gcn.layer2 (adj V c) (s2arr V c) (b2arr V c) (((cfg2.win 3).blk t).view.emb y)
  rw [hemb]
  show Cert.Gcn.layer2 (ablk V c t) (sblk V c t) (bblk V c t) _ = _
  rw [sblk_eq, bblk_eq]
  exact Cert.Gcn.layer2_row_congr _ _ _ _ _ _ (fun k => ablk_apply V c t _ k (by omega)) _

/-- Every index of the result array is in some point's block: row r is in block r / 400. -/
theorem cover (i : S10000x7.Idx) :
    ∃ t : Fin cfg2.N, (cfg2.win 3).flush t = true ∧ i ∈ ((cfg2.win 3).blk t).view.set := by
  have hi0 : (i 0).val < 10000 := (i 0).isLt
  have hi1 : (i 1).val < 7 := (i 1).isLt
  have e : cfg2.N = 25 := N_2
  let t : Fin cfg2.N := ⟨(i 0).val / 400, by omega⟩
  obtain ⟨-, -, -, -, -, -, e6, e7⟩ := idx_facts t
  refine ⟨t, flush2_3 t, ?_⟩
  show i ∈ ((View.whole main_v4).slice (win2_3.rect t)).set
  rw [View.set_slice_whole, Rect.mem_set_unit]
  intro a
  match a with
  | ⟨0, _⟩ =>
    show win2_3.index t (0 : Fin 2) * 400 ≤ (i 0).val ∧ (i 0).val < win2_3.index t (0 : Fin 2) * 400 + 400
    rw [e6]; show (i 0).val / 400 * 400 ≤ (i 0).val ∧ (i 0).val < (i 0).val / 400 * 400 + 400; omega
  | ⟨1, _⟩ =>
    show win2_3.index t (1 : Fin 2) * 7 ≤ (i 1).val ∧ (i 1).val < win2_3.index t (1 : Fin 2) * 7 + 7
    rw [e7]; omega

/-- The result array after the call: stage 2 of the whole arrays. -/
theorem final (c : Dev nD) :
    (dat2 V c).arrAt 3 cfg2.N = Cert.Gcn.layer2 (adj V c) (s2arr V c) (b2arr V c) :=
  (dat2 V c).arrAt_eq_of_cover 3 (Cert.Gcn.layer2 (adj V c) (s2arr V c) (b2arr V c))
    (fun t _ => flushed_eq V c t) cover

end Cert.KernelIdeal.Stage2

end
-- ==== Proof.Chain.lean ====
/-
  The contents of the buffers at each boundary between @main's segments, read back to the launch memory.

  @main is five segments: the first pipelined call, a reshape of b1 to one row, the second call, a reshape of b2 to one
  row, the third call. A call changes only its output array (its input arrays are never written back); a reshape writes
  only its result. So at the second call's entry its four inputs are adj, the first call's output x · w1, b1 as one row
  and w2; at the third call's entry its three inputs are adj, the second call's output and b2 as one row; and the result
  buffer at the end holds stage 2 of stage 1 of stage 0 of the arguments.
-/
import proofs.«109245_g25812753449811_cont_sun_m_348_3_alg».proof.Proof.Gen.KernelIdeal.Frame
import proofs.«109245_g25812753449811_cont_sun_m_348_3_alg».proof.Proof.Stage0
import proofs.«109245_g25812753449811_cont_sun_m_348_3_alg».proof.Proof.Stage1
import proofs.«109245_g25812753449811_cont_sun_m_348_3_alg».proof.Proof.Stage2
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.Gcn (Mat)

variable (m : (ℓ : Loc nD τ sig) → Buf (Elt Ideal) ℓ) (ρ : Dev nD → PrngReg)

/-- The six arguments as launched, as matrices and vectors. -/
abbrev ax (c : Dev nD) : Mat 10000 1433 := m ((c : Thread nD τ).loc main_arg0)
abbrev aadj (c : Dev nD) : Mat 10000 10000 := m ((c : Thread nD τ).loc main_arg1)
abbrev aw1 (c : Dev nD) : Mat 1433 512 := m ((c : Thread nD τ).loc main_arg2)
abbrev ab1 (c : Dev nD) : (⟨1, ![512]⟩ : Shape).Idx → EReal := m ((c : Thread nD τ).loc main_arg3)
abbrev aw2 (c : Dev nD) : Mat 512 7 := m ((c : Thread nD τ).loc main_arg4)
abbrev ab2 (c : Dev nD) : (⟨1, ![7]⟩ : Shape).Idx → EReal := m ((c : Thread nD τ).loc main_arg5)

/-- A vector reshaped to one row is the vector as a one-row matrix. -/
theorem reshape_row {n : ℕ} (b : (⟨1, ![n]⟩ : Shape).Idx → EReal) (h : (⟨1, ![n]⟩ : Shape).ShapeCasts ⟨2, ![1, n]⟩) :
    shapeCast ⟨2, ![1, n]⟩ b h = Cert.Gcn.rowOf b := by
  funext i
  obtain ⟨u, q, rfl⟩ : ∃ (u : Fin 1) (q : Fin n), i = ix2 u q := ⟨i 0, i 1, eq_ix2 i⟩
  rw [Cert.Gcn.rowOf_ix2]
  exact shapeCast_a_1a_apply b h u q

/-! ## The second call's entry -/

theorem V2_adj (c : Dev nD) : V2 m ρ c main_arg1 = aadj m c :=
  calc W2 m ρ c (Proc.devRef .tc main_arg1)
    _ = W1 m ρ c (Proc.devRef .tc main_arg1) := StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg1) := W1_of_ne m ρ c main_arg1 (by decide)
    _ = m ((c : Thread nD τ).loc main_arg1) := rfl

theorem V2_w2 (c : Dev nD) : V2 m ρ c main_arg4 = aw2 m c :=
  calc W2 m ρ c (Proc.devRef .tc main_arg4)
    _ = W1 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W0 m ρ c (Proc.devRef .tc main_arg4) := W1_of_ne m ρ c main_arg4 (by decide)
    _ = m ((c : Thread nD τ).loc main_arg4) := rfl

/-- The first call's output, as the second call finds it: x · w1. -/
theorem V2_s1 (c : Dev nD) : V2 m ρ c main_v0 = Cert.Gcn.mul (ax m c) (aw1 m c) :=
  calc W2 m ρ c (Proc.devRef .tc main_v0)
    _ = W1 m ρ c (Proc.devRef .tc main_v0) := StableHlo.after_of_forall_not_mem (b := Proc.devRef .tc main_v0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2
    _ = Cert.Gcn.mul (ax m c) (aw1 m c) := Stage0.final (V0 m ρ) c

/-- b1 as one row. -/
theorem V2_b1 (c : Dev nD) : V2 m ρ c main_v1 = Cert.Gcn.rowOf (ab1 m c) := by
  have e : W1 m ρ c (Proc.devRef .tc main_arg3) = m ((c : Thread nD τ).loc main_arg3) := W1_of_ne m ρ c main_arg3 (by decide)
  show StableHlo.after hostOps1 (W1 m ρ c) (Proc.devRef .tc main_v1) = _
  after_results
  refine Eq.trans ?_ (reshape_row (ab1 m c) Facts₀.shapeCasts_S512_S1x512)
  show shapeCast S1x512 (W1 m ρ c (Proc.devRef .tc main_arg3)) Facts₀.shapeCasts_S512_S1x512 = _
  rw [e]

/-- The second call's output: stage 1 of the arguments. -/
abbrev s2 (c : Dev nD) : Mat 10000 7 :=
  Cert.Gcn.layer1 (aadj m c) (Cert.Gcn.mul (ax m c) (aw1 m c)) (Cert.Gcn.rowOf (ab1 m c)) (aw2 m c)

/-! ## The third call's entry -/

theorem V4_adj (c : Dev nD) : V4 m ρ c main_arg1 = aadj m c :=
  calc W4 m ρ c (Proc.devRef .tc main_arg1)
    _ = W3 m ρ c (Proc.devRef .tc main_arg1) := StableHlo.after_of_forall_not_mem (b := Proc.devRef .tc main_arg1) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = aadj m c := V2_adj m ρ c

theorem V4_s2 (c : Dev nD) : V4 m ρ c main_v2 = s2 m c :=
  calc W4 m ρ c (Proc.devRef .tc main_v2)
    _ = W3 m ρ c (Proc.devRef .tc main_v2) := StableHlo.after_of_forall_not_mem (b := Proc.devRef .tc main_v2) _ _ (List.forall_iff_forall_mem.mp (by
      simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat1 (V2 m ρ) c).arrAt 4 cfg1.N := W3_arr m ρ c 4
    _ = Cert.Gcn.layer1 (V2 m ρ c main_arg1) (V2 m ρ c main_v0) (V2 m ρ c main_v1) (V2 m ρ c main_arg4) := Stage1.final (V2 m ρ) c
    _ = s2 m c := by rw [V2_adj, V2_s1, V2_b1, V2_w2]

/-- b2 as one row. -/
theorem V4_b2 (c : Dev nD) : V4 m ρ c main_v3 = Cert.Gcn.rowOf (ab2 m c) := by
  have e : W3 m ρ c (Proc.devRef .tc main_arg5) = m ((c : Thread nD τ).loc main_arg5) :=
    calc W3 m ρ c (Proc.devRef .tc main_arg5)
      _ = W2 m ρ c (Proc.devRef .tc main_arg5) := W3_of_ne m ρ c main_arg5 (by decide)
      _ = W1 m ρ c (Proc.devRef .tc main_arg5) := StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
      _ = W0 m ρ c (Proc.devRef .tc main_arg5) := W1_of_ne m ρ c main_arg5 (by decide)
      _ = m ((c : Thread nD τ).loc main_arg5) := rfl
  show StableHlo.after hostOps2 (W3 m ρ c) (Proc.devRef .tc main_v3) = _
  after_results
  refine Eq.trans ?_ (reshape_row (ab2 m c) Facts₀.shapeCasts_S7_S1x7)
  show shapeCast S1x7 (W3 m ρ c (Proc.devRef .tc main_arg5)) Facts₀.shapeCasts_S7_S1x7 = _
  rw [e]

/-! ## The result -/

/-- The kernel's result: stage 2 of stage 1 of stage 0 of the arguments. -/
abbrev result (c : Dev nD) : Mat 10000 7 := Cert.Gcn.layer2 (aadj m c) (s2 m c) (Cert.Gcn.rowOf (ab2 m c))

/-- The result buffer at the end of @main holds it. -/
theorem V5_result (c : Dev nD) : V5 m ρ c main_v4 = result m c :=
  calc V5 m ρ c main_v4
    _ = (dat2 (V4 m ρ) c).arrAt 3 cfg2.N := (hF2 m ρ c 3).symm
    _ = Cert.Gcn.layer2 (V4 m ρ c main_arg1) (V4 m ρ c main_v2) (V4 m ρ c main_v3) := Stage2.final (V4 m ρ) c
    _ = result m c := by rw [V4_adj, V4_s2, V4_b2]

end Cert.KernelIdeal.Chain

end
-- ==== Proof.Ref.lean ====
/-
  The reference program's result, stage by stage, is the specification: jnp's four `dot`s are matrix products, its two
  bias additions broadcast a vector along the rows, its relu is the maximum with zero, and its softmax takes each row's
  maximum from -∞ (then once more against -∞, which changes nothing: a maximum taken from -∞ is never below it),
  exponentiates the differences, sums each row from zero and divides. Each stage below is read at an index through the
  reference's read-at-an-index lemmas and compared with the specification entry by entry.
-/
import proofs.«109245_g25812753449811_cont_sun_m_348_3_alg».proof.Proof.Gen.ReferenceIdeal.Read
import proofs.«109245_g25812753449811_cont_sun_m_348_3_alg».proof.Proof.Spec
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.ValueIdx
open Cert.Gcn (Mat row col)

variable (x0 : (⟨S10000x1433, .f32⟩ : BufTy).Contents (Elt Ideal)) (x1 : (⟨S10000x10000, .f32⟩ : BufTy).Contents (Elt Ideal)) (x2 : (⟨S1433x512, .f32⟩ : BufTy).Contents (Elt Ideal))
  (x3 : (⟨S512, .f32⟩ : BufTy).Contents (Elt Ideal)) (x4 : (⟨S512x7, .f32⟩ : BufTy).Contents (Elt Ideal)) (x5 : (⟨S7, .f32⟩ : BufTy).Contents (Elt Ideal))

/-- Two rank-2 indices with equal coordinates are equal. -/
theorem idx2_ext {m n : ℕ} {u v : (⟨2, ![m, n]⟩ : Shape).Idx} (h0 : (u 0).val = (v 0).val) (h1 : (u 1).val = (v 1).val) :
    u = v := funext fun a => Fin.ext (by match a with | ⟨0, _⟩ => exact h0 | ⟨1, _⟩ => exact h1)

/-- Two rank-1 indices with equal coordinates are equal. -/
theorem idx1_ext {n : ℕ} {u v : (⟨1, ![n]⟩ : Shape).Idx} (h0 : (u 0).val = (v 0).val) : u = v :=
  funext fun a => Fin.ext (by match a with | ⟨0, _⟩ => exact h0)

/-- s1 = x · w1. -/
theorem s1_eq : val_main_v0 (F := Ideal) x0 x2 = Cert.Gcn.mul x0 x2 := by
  funext i
  rw [val_main_v0_apply]
  show _ = ∑ k : Fin 1433, x0 (ix2 (row i) k) * x2 (ix2 k (col i))
  refine Finset.sum_congr rfl fun k _ => ?_
  rw [show lidx_main_v0 i k = ix2 (row i) k from idx2_ext rfl rfl, show ridx_main_v0 i k = ix2 k (col i) from idx2_ext rfl rfl]

/-- adj · s1. -/
theorem as1_eq : val_main_v1 (F := Ideal) x0 x1 x2 = Cert.Gcn.mul x1 (Cert.Gcn.mul x0 x2) := by
  funext i
  rw [val_main_v1_apply, s1_eq]
  show _ = ∑ k : Fin 10000, x1 (ix2 (row i) k) * Cert.Gcn.mul x0 x2 (ix2 k (col i))
  refine Finset.sum_congr rfl fun k _ => ?_
  rw [show lidx_main_v1 i k = ix2 (row i) k from idx2_ext rfl rfl, show ridx_main_v1 i k = ix2 k (col i) from idx2_ext rfl rfl]

/-- The hidden activation. -/
theorem hidden_eq : val_main_v5 (F := Ideal) x0 x1 x2 x3 = Cert.Gcn.hidden x1 (Cert.Gcn.mul x0 x2) (Cert.Gcn.rowOf x3) := by
  funext i
  obtain ⟨p, q, rfl⟩ : ∃ (p : Fin 10000) (q : Fin 512), i = ix2 p q := ⟨i 0, i 1, eq_ix2 i⟩
  rw [val_main_v5_apply, val_main_v4_apply, as1_eq, val_main_v3_apply, val_main_v2_apply, val_main_call0_v0_apply,
    val_main_call0_cst_apply, Cert.Gcn.hidden_ix2, Cert.Gcn.rowOf_ix2]
  show max (_ + x3 _) _ = max (_ + x3 _) _
  rw [show idx_main_v2 (idx_main_v3 (ix2 p q)) = ix1 q from idx1_ext rfl]
  rfl

/-- s2 = hidden · w2. -/
theorem s2_eq : val_main_v6 (F := Ideal) x0 x1 x2 x3 x4
    = Cert.Gcn.layer1 x1 (Cert.Gcn.mul x0 x2) (Cert.Gcn.rowOf x3) x4 := by
  funext i
  rw [val_main_v6_apply, hidden_eq]
  show _ = ∑ k : Fin 512, Cert.Gcn.hidden x1 (Cert.Gcn.mul x0 x2) (Cert.Gcn.rowOf x3) (ix2 (row i) k) * x4 (ix2 k (col i))
  refine Finset.sum_congr rfl fun k _ => ?_
  rw [show lidx_main_v6 i k = ix2 (row i) k from idx2_ext rfl rfl, show ridx_main_v6 i k = ix2 k (col i) from idx2_ext rfl rfl]

/-- The second stage's input, named. -/
abbrev S2 : Mat 10000 7 := Cert.Gcn.layer1 x1 (Cert.Gcn.mul x0 x2) (Cert.Gcn.rowOf x3) x4

/-- The logits. -/
abbrev L : Mat 10000 7 := Cert.Gcn.logits x1 (S2 x0 x1 x2 x3 x4) (Cert.Gcn.rowOf x5)

theorem logits_eq : val_main_v10 (F := Ideal) x0 x1 x2 x3 x4 x5 = L x0 x1 x2 x3 x4 x5 := by
  funext i
  obtain ⟨p, q, rfl⟩ : ∃ (p : Fin 10000) (q : Fin 7), i = ix2 p q := ⟨i 0, i 1, eq_ix2 i⟩
  rw [val_main_v10_apply, val_main_v7_apply, s2_eq, val_main_v9_apply, val_main_v8_apply]
  unfold L
  rw [Cert.Gcn.logits_ix2, Cert.Gcn.mul_ix2, Cert.Gcn.rowOf_ix2]
  show _ + x5 _ = _ + x5 _
  rw [show idx_main_v8 (idx_main_v9 (ix2 p q)) = ix1 q from idx1_ext rfl]
  refine congrArg (· + x5 (ix1 q)) (Finset.sum_congr rfl fun k _ => ?_)
  rw [show lidx_main_v7 (ix2 p q) k = ix2 p k from idx2_ext rfl rfl, show ridx_main_v7 (ix2 p q) k = ix2 k q from idx2_ext rfl rfl]

/-- The row maxima: jnp's maximum from -∞, taken once more against -∞. -/
theorem rowmax_eq (p : Fin 10000) :
    val_main_v13 (F := Ideal) x0 x1 x2 x3 x4 x5 (ix1 p) = Cert.Gcn.rowMax (L x0 x1 x2 x3 x4 x5) p := by
  rw [val_main_v13_apply, val_main_v12_apply, val_main_cst_0_apply]
  unfold val_main_v11
  rw [logits_eq]
  have hr := Host.reduce_eq_fold_single (α := EReal) (FloatOps.maximumf (F := Ideal) (φ := .f32)) (L x0 x1 x2 x3 x4 x5)
    (val_main_cst (F := Ideal)) Facts₀.reducesTo_S10000x7_S10000_d1 (by decide) Facts₀.h_S_ (ix1 p)
  refine (congrArg (fun z : EReal => max (Ideal.ofBits .f32 0xFF800000#32) z) hr).trans ?_
  show max (Ideal.ofBits .f32 0xFF800000#32) ((Finset.univ : Finset (Fin 7)).fold max (Ideal.ofBits .f32 0xFF800000#32) _) = _
  refine (max_eq_right ((Finset.le_fold_max _).mpr (Or.inl le_rfl))).trans ?_
  unfold Cert.Gcn.rowMax
  refine congrArg (fun f => (Finset.univ : Finset (Fin 7)).fold max (Ideal.ofBits .f32 0xFF800000#32) f) (funext fun j => ?_)
  exact congrArg (L x0 x1 x2 x3 x4 x5) (idx2_ext rfl rfl)

/-- exp (l - rowmax l). -/
theorem expo_eq : val_main_v17 (F := Ideal) x0 x1 x2 x3 x4 x5 = Cert.Gcn.expo (L x0 x1 x2 x3 x4 x5) := by
  funext i
  obtain ⟨p, q, rfl⟩ : ∃ (p : Fin 10000) (q : Fin 7), i = ix2 p q := ⟨i 0, i 1, eq_ix2 i⟩
  rw [val_main_v17_apply, val_main_v16_apply, logits_eq, val_main_v15_apply, val_main_v14_apply,
    show idx_main_v14 (idx_main_v15 (ix2 p q)) = ix1 p from idx1_ext rfl, rowmax_eq, Cert.Gcn.expo_ix2]
  rfl

/-- The result: the softmax of the logits' rows. -/
theorem result_eq : val_main_v21 (F := Ideal) x0 x1 x2 x3 x4 x5
    = Cert.Gcn.layer2 x1 (S2 x0 x1 x2 x3 x4) (Cert.Gcn.rowOf x5) := by
  funext i
  obtain ⟨p, q, rfl⟩ : ∃ (p : Fin 10000) (q : Fin 7), i = ix2 p q := ⟨i 0, i 1, eq_ix2 i⟩
  show _ = Cert.Gcn.softmax (L x0 x1 x2 x3 x4 x5) (ix2 p q)
  rw [val_main_v21_apply, val_main_v20_apply, val_main_v19_apply,
    show idx_main_v19 (idx_main_v20 (ix2 p q)) = ix1 p from idx1_ext rfl, val_main_v18_apply, expo_eq,
    val_main_cst_1_apply, Cert.Gcn.softmax_ix2]
  show Ideal.div _ (Ideal.ofBits .f32 0x00000000#32 + _) = _
  rw [Ideal.ofBits_zero_f32, zero_add]
  refine congrArg (Ideal.div _) (Finset.sum_congr rfl fun k _ => ?_)
  exact congrArg (Cert.Gcn.expo (L x0 x1 x2 x3 x4 x5)) (idx2_ext rfl rfl)

end Cert.ReferenceIdeal.Stages

end
-- ==== Proof.lean ====
/-
  A two-layer graph convolution with a row softmax,

      out = softmax_rows (adj · (max (adj · (x · w1) + b1, 0) · w2) + b2),

  computed by three pipelined calls that tile the ROWS of the left factor (1000 rows of x, then 200 and 400 rows of
  the adjacency matrix) and keep every contraction whole, against jnp's four whole matrix products. Over the extended
  reals a change of float format is the identity, a product into a zero accumulator is the plain finite sum, and every
  step of every stage (a product's row, the bias added to a row, the maximum with zero, a row's maximum, exponentials,
  a row's sum, the quotient) stays inside one row; so each call's block is the same rows of the stage applied to the whole
  matrix, the blocks tile the output, and the three output arrays are the three stages of the specification
  (`Cert.Gcn`). The reference is the same three stages read operation by operation. No law beyond the commutative
  monoid of the sums and the order of `max` is used, so the precondition (finite inputs) is never opened.
-/
import proofs.«109245_g25812753449811_cont_sun_m_348_3_alg».proof.Defs
import proofs.«109245_g25812753449811_cont_sun_m_348_3_alg».proof.Proof.Gen.Kernel
import proofs.«109245_g25812753449811_cont_sun_m_348_3_alg».proof.Proof.Gen.Kernel.Skeleton
import proofs.«109245_g25812753449811_cont_sun_m_348_3_alg».proof.Proof.Gen.Kernel.Launch
import proofs.«109245_g25812753449811_cont_sun_m_348_3_alg».proof.Proof.Gen.Kernel.Points
import proofs.«109245_g25812753449811_cont_sun_m_348_3_alg».proof.Proof.Gen.Kernel.Frame
import proofs.«109245_g25812753449811_cont_sun_m_348_3_alg».proof.Proof.Gen.KernelIdeal
import proofs.«109245_g25812753449811_cont_sun_m_348_3_alg».proof.Proof.Gen.KernelIdeal.Skeleton
import proofs.«109245_g25812753449811_cont_sun_m_348_3_alg».proof.Proof.Gen.KernelIdeal.Launch
import proofs.«109245_g25812753449811_cont_sun_m_348_3_alg».proof.Proof.Gen.KernelIdeal.Points
import proofs.«109245_g25812753449811_cont_sun_m_348_3_alg».proof.Proof.Gen.KernelIdeal.Frame
import proofs.«109245_g25812753449811_cont_sun_m_348_3_alg».proof.Proof.Gen.ReferenceIdeal
import proofs.«109245_g25812753449811_cont_sun_m_348_3_alg».proof.Proof.Gen.Pre_finite_inputs
import proofs.«109245_g25812753449811_cont_sun_m_348_3_alg».proof.Proof.Gen.ReferenceIdeal.Run
import proofs.«109245_g25812753449811_cont_sun_m_348_3_alg».proof.Proof.Gen.ReferenceIdeal.Read
import proofs.«109245_g25812753449811_cont_sun_m_348_3_alg».proof.Proof.RunLast
import proofs.«109245_g25812753449811_cont_sun_m_348_3_alg».proof.Proof.Chain
import proofs.«109245_g25812753449811_cont_sun_m_348_3_alg».proof.Proof.Ref
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result at stage 2 of stage 1 of stage 0 of the arguments. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun _ h c => ⟨(h c).1.trans (Cert.KernelIdeal.Chain.V5_result m ρ c), (h c).2⟩)
      (Cert.KernelIdeal.RunLast.run_last (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v21_eq, Cert.ReferenceIdeal.Stages.result_eq]
    obtain ⟨h0, h1, h2, h3, h4, h5⟩ := hagree c
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
